-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : FVec F S100000x128 .f32) (main_arg2 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  main_v13
-- ==== Kernel.lean ====
abbrev S100000x128 : Shape := ⟨2, ![100000, 128]⟩
abbrev S1x1 : Shape := ⟨2, ![1, 1]⟩
abbrev S10000x128 : Shape := ⟨2, ![10000, 128]⟩
abbrev S10000 : Shape := ⟨1, ![10000]⟩
abbrev S10000x1 : Shape := ⟨2, ![10000, 1]⟩
abbrev S1x10000x1 : Shape := ⟨3, ![1, 10000, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S1x1, .f32⟩
  | .hbm, ⟨4, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S1x1, .f32⟩
  | .local _ .vmem, ⟨7, _⟩ => ⟨S1x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v47 : BitVec 1 := Scalar.cmpi .eq arg0 c9_i32
  let v48 : BitVec 32 := Scalar.extui v47
  let c0_i32_18 : BitVec 32 := 0#32
  let v49 : BitVec 1 := Scalar.cmpi .ne v48 c0_i32_18
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  shapeCasts_S10000x1_S1x10000x1 : S10000x1.ShapeCasts S1x10000x1
  reduces_S1x10000x1_S1 : S1x10000x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S_ : Shape := ⟨0, ![]⟩
abbrev S100000 : Shape := ⟨1, ![100000]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S_, .f32⟩
  | .hbm, ⟨5, _⟩ => ⟨S100000, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S100000, .f32⟩
  | .hbm, ⟨10, _⟩ => ⟨S100000x128, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .f32⟩
  | .hbm, ⟨22, _⟩ => ⟨S100000, .f32⟩
  | .hbm, ⟨23, _⟩ => ⟨S100000x128, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_v11 : Ref sig .tc := ⟨.hbm, 26, rfl⟩
abbrev main_call3_v0 : Ref sig .tc := ⟨.hbm, 27, rfl⟩
abbrev main_call3_cst : Ref sig .tc := ⟨.hbm, 28, rfl⟩
abbrev main_call3_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S_S100000 : S_.BroadcastsInDim S100000 (![] : Fin 0 → Fin S100000.rank)
  reducesTo_S100000_S_d0 : S100000.ReducesTo [0] S_

variable [Facts₀]

class Facts : Prop extends Facts₀ where

variable [Facts]
-- ==== Proof.Pieces.lean ====
/-
  What the kernel body leaves behind at a grid point, read as values.  The body has three courses, by the point's place
  in the grid.  At the first point it zeroes the running total, then adds the block's scalar; at a middle point it adds
  the block's scalar to the total the point before left; at the last point it does the same and then writes the result
  cell from the new total.  Each course's stores cover the cell they write, so what the cell holds is the last store's
  value, and a load after a store reads what was stored.
-/
import proofs.«171142_j26371099197446_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point: the total is zeroed, read back, and the block's scalar added. -/
theorem sout_A (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S10000x128 .f32) :
    sout0_A_0 c i arg1 harg1 arg2 harg2 arg3 harg3 arg4 harg4 arg5 harg5 hc0 hc1 x0 x1 x2 = k0_pay1 (k0_pay4 x0 x1 x2) (k0_pay3 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread,
    View.ld_unit_zero (S := S10000x128) hz]

/-- Middle point: the block's scalar is added to the total the point before left. -/
theorem sout_B (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S10000x128 .f32) (xs0 : Vec F S1x1 .f32) :
    sout0_B_0 c i arg1 harg1 arg2 harg2 arg3 harg3 arg4 harg4 arg5 harg5 hc0 hc1 x0 x1 x2 xs0 = k0_pay1 (k0_pay4 x0 x1 x2) xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero (S := S1x1) hz]
  simp only [View.readAt_eq_ld, harg1.read_unread, harg2.read_unread, harg3.read_unread, harg5.read_unread,
    View.ld_unit_zero (S := S10000x128) hz, View.ld_unit_zero (S := S1x1) hz]

/-- Last point, the total: as at a middle point. -/
theorem sout_C (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S10000x128 .f32) (xs0 : Vec F S1x1 .f32) :
    sout0_C_0 c i arg1 harg1 arg2 harg2 arg3 harg3 arg4 harg4 arg5 harg5 hc0 hc1 x0 x1 x2 xs0 = k0_pay1 (k0_pay4 x0 x1 x2) xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero (S := S1x1) hz]
  simp only [View.readAt_eq_ld, harg1.read_unread, harg2.read_unread, harg3.read_unread, harg5.read_unread,
    View.ld_unit_zero (S := S10000x128) hz, View.ld_unit_zero (S := S1x1) hz]

/-- Last point, the result cell: written from the new total, read back after its store. -/
theorem out_C (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S10000x128 .f32) (xs0 : Vec F S1x1 .f32) :
    out0_C_3 c i arg1 harg1 arg2 harg2 arg3 harg3 arg4 harg4 arg5 harg5 hc0 hc1 x0 x1 x2 xs0 = k0_pay2 (k0_pay1 (k0_pay4 x0 x1 x2) xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero (S := S1x1) hz, View.readCov_unit_zero (S := S1x1) _ hz]
  simp only [View.readAt_eq_ld, harg1.read_unread, harg2.read_unread, harg3.read_unread, harg5.read_unread,
    View.ld_unit_zero (S := S10000x128) hz, View.ld_unit_zero (S := S1x1) hz]

end Cert.KernelIdeal.Pieces

end
-- ==== Proof.RowRatio.lean ====
/-
  The mathematics shared by the two programs, on the extended reals.

  For three rows a, p, q of 128 numbers the ROW RATIO is
      ratio a p q = sim a p / (sim a q + ε),   sim a b = exp ((⟨a,b⟩ / (√⟨a,a⟩ · √⟨b,b⟩)) / ½),
  with ⟨a,b⟩ the inner product, ε and ½ the values of two float patterns, and every operation the extended reals' own.
  Both programs compute minus the logarithm of the sum of the row ratios over the 100000 rows of their three arguments;
  they differ only in how the sum is grouped.  Below: the definitions, and the operations that are not pointwise
  (a sum along the lanes of a row kept as a column, the sum of a column, the host's two sums) read at an index.
-/
import Idealize.ShloMosaic.PureOps.Ideal.Laws
import Idealize.ShloMosaic.Lib.ValueIdx
import Idealize.ShloMosaic.Lib.Pipeline.Value

noncomputable section

namespace Cert.Contrast

open Idealize.ShloMosaic Idealize.ShloMosaic.ValueIdx

/-- A row of 128 extended reals. -/
abbrev Row := Fin 128 → EReal

/-- The inner product of two rows. -/
def dot (a b : Row) : EReal := ∑ k : Fin 128, a k * b k

/-- The exponential of the cosine similarity of two rows divided by the temperature ½. -/
def sim (a b : Row) : EReal :=
  Ideal.exp (Ideal.div (Ideal.div (dot a b) (Ideal.sqrt (dot a a) * Ideal.sqrt (dot b b))) (Ideal.ofBits .f32 0x3F000000#32))

/-- The row ratio: similarity to the positive row over similarity to the negative row plus ε. -/
def ratio (a p q : Row) : EReal :=
  Ideal.div (sim a p) (sim a q + Ideal.ofBits .f32 0x322BCC77#32)

/-- Row `r` of an array of `R` rows. -/
abbrev rowOf {R : ℕ} (X : (⟨2, ![R, 128]⟩ : Shape).Idx → EReal) (r : Fin R) : Row := fun k => X (ix2 r k)

/-- The loss: minus the logarithm of the total of the row ratios. -/
def loss (total : EReal) : EReal := -(Ideal.log total)

/-! ## A block of 10000 rows: the lane sums and the column sum -/

/-- The sum along the lanes of a [10000,128] block, kept as a [10000,1] column, at row `r`. -/
theorem laneSum_col (v : FVec Ideal (⟨2, ![10000, 128]⟩ : Shape) .f32)
    (h : Shape.Reduces (⟨2, ![10000, 128]⟩ : Shape) [1] ⟨1, ![10000]⟩) (hφ : FKind.Formats .f32)
    (hacc : (0x00000000#32 : BitVec 32) = FKind.add.neutral .f32 hφ)
    (hc : Shape.ShapeCasts (⟨1, ![10000]⟩ : Shape) ⟨2, ![10000, 1]⟩) (r : Fin 10000) (z : Fin 1) :
    shapeCast (⟨2, ![10000, 1]⟩ : Shape) (multiReduction .add [1] ⟨1, ![10000]⟩ v 0x00000000#32 h hφ hacc) hc (ix2 r z)
      = ∑ k : Fin 128, v (ix2 r k) := by
  refine (shapeCast_apply _ hc (ix2 r z) (ix1 r) ?_).trans ?_
  · rw [Shape.rowMajor_val_one, Shape.rowMajor_val_two]
    show r.val = r.val * 1 + z.val
    have := z.isLt; omega
  · refine (Ideal.multiReduction_add_single v _ h hφ hacc (ix1 r)).trans ?_
    exact Finset.sum_congr rfl fun k _ => congrArg v
      (funext fun a => Fin.ext (by match a with | ⟨0, _⟩ => rfl | ⟨1, _⟩ => rfl))

/-- The sum of a [10000,1] column through its [1,10000,1] view, taken out as a scalar: the sum over the rows. -/
theorem colSum (w : FVec Ideal (⟨2, ![10000, 1]⟩ : Shape) .f32)
    (hc1 : Shape.ShapeCasts (⟨2, ![10000, 1]⟩ : Shape) ⟨3, ![1, 10000, 1]⟩)
    (h : Shape.Reduces (⟨3, ![1, 10000, 1]⟩ : Shape) [1, 2] ⟨1, ![1]⟩) (hφ : FKind.Formats .f32)
    (hacc : (0x00000000#32 : BitVec 32) = FKind.add.neutral .f32 hφ)
    (hc2 : Shape.ShapeCasts (⟨1, ![1]⟩ : Shape) ⟨3, ![1, 1, 1]⟩)
    (hp : ∀ a, (![0, 0, 0] : Fin 3 → ℕ) a < (⟨3, ![1, 1, 1]⟩ : Shape).size a) :
    extractAt ![0, 0, 0] (shapeCast (⟨3, ![1, 1, 1]⟩ : Shape)
        (multiReduction .add [1, 2] ⟨1, ![1]⟩ (shapeCast (⟨3, ![1, 10000, 1]⟩ : Shape) w hc1) 0x00000000#32 h hφ hacc) hc2) hp
      = ∑ r : Fin 10000, w (ix2 r 0) := by
  unfold extractAt
  refine (shapeCast_apply _ hc2 _ (ix1 0) ?_).trans ?_
  · rw [Shape.rowMajor_val_one, Shape.rowMajor_val_three]; rfl
  · refine (Ideal.multiReduction_add_total _ _ h (fun b => by match b with | ⟨0, _⟩ => rfl) hφ hacc (ix1 0)).trans ?_
    refine (Equiv.sum_comp (Shape.reshapeEquiv hc1) w).trans ?_
    rw [sum_idx2]
    exact Finset.sum_congr rfl fun a _ => Fin.sum_univ_one _

/-! ## The host's sums -/

/-- The host's sum of a [100000,128] array along its lanes from the zero, at row `n`. -/
theorem hostLaneSum (y : FVec Ideal (⟨2, ![100000, 128]⟩ : Shape) .f32)
    (h' : Shape.ReducesTo (⟨2, ![100000, 128]⟩ : Shape) [1] ⟨1, ![100000]⟩) (hu : 0 < (⟨0, ![]⟩ : Shape).numel)
    (n : Fin 100000) :
    Host.reduceAdd (F := Ideal) y (constant (F := Ideal) ⟨0, ![]⟩ .f32 0x00000000#32) h' hu (ix1 n)
      = ∑ k : Fin 128, y (ix2 n k) := by
  simp only [Host.reduceAdd, Ideal.hostReduceAdd_def]
  rw [Ideal.hostReduceAdd_single h' (by decide)]
  show Ideal.ofBits .f32 0x00000000#32 + _ = _
  rw [Ideal.ofBits_zero_f32, zero_add]
  exact Finset.sum_congr rfl fun k _ => congrArg y
    (funext fun a => Fin.ext (by match a with | ⟨0, _⟩ => rfl | ⟨1, _⟩ => rfl))

/-- A rank-1 index is its one coordinate. -/
def idxEquiv1 {n : ℕ} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The host's sum of a vector of 100000 numbers from the zero: the sum over its entries. -/
theorem hostTotal (y : FVec Ideal (⟨1, ![100000]⟩ : Shape) .f32)
    (h' : Shape.ReducesTo (⟨1, ![100000]⟩ : Shape) [0] ⟨0, ![]⟩) (hu : 0 < (⟨0, ![]⟩ : Shape).numel)
    (j : (⟨0, ![]⟩ : Shape).Idx) :
    Host.reduceAdd (F := Ideal) y (constant (F := Ideal) ⟨0, ![]⟩ .f32 0x00000000#32) h' hu j
      = ∑ n : Fin 100000, y (ix1 n) := by
  simp only [Host.reduceAdd, Ideal.hostReduceAdd_def]
  rw [Ideal.hostReduceAdd_total h' (fun b => b.elim0)]
  show Ideal.ofBits .f32 0x00000000#32 + _ = _
  rw [Ideal.ofBits_zero_f32, zero_add]
  exact sum_idx1 y

end Cert.Contrast

end
-- ==== Proof.Payloads.lean ====
/-
  The kernel body's arithmetic on the extended reals.  At one grid point the body computes, from its three blocks of
  10000 rows, ONE scalar — the sum over the block's rows of the row ratio — and adds it to the running total it keeps in
  its scratch cell; the first point starts the total at zero, the last point writes minus the total's logarithm.
-/
import proofs.«171142_j26371099197446_1_alg».proof.Proof.Gen.KernelIdeal.Skeleton
import proofs.«171142_j26371099197446_1_alg».proof.Proof.RowRatio

noncomputable section

namespace Cert.KernelIdeal.Pay

open Cert.KernelIdeal Cert.KernelIdeal.Gen Cert.Contrast Idealize.ShloMosaic Idealize.ShloMosaic.ValueIdx

/-- The inner product of row `r` of two blocks, as the body forms it: the lane sum of their product, kept as a column. -/
theorem laneDot (x y : FVec Ideal S10000x128 .f32) (r : Fin 10000) (z : Fin 1) :
    shapeCast S10000x1 (multiReduction .add [1] S10000 (mulf x y) 0x00000000#32 reduces_S10000x128_S10000 (.inl rfl) rfl)
        shapeCasts_S10000_S10000x1 (ix2 r z)
      = dot (rowOf x r) (rowOf y r) :=
  laneSum_col (mulf x y) _ _ _ _ r z

/-- The block's scalar is the sum over the block's rows of the row ratio. -/
theorem pay4_eq (v3 v4 v5 : Vec Ideal S10000x128 .f32) :
    k0_pay4 (F := Ideal) v3 v4 v5 = ∑ r : Fin 10000, ratio (rowOf v3 r) (rowOf v4 r) (rowOf v5 r) := by
  dsimp only [k0_pay4]
  refine (colSum _ _ _ _ _ _ _).trans (Finset.sum_congr rfl fun r _ => ?_)
  unfold ratio sim
  rw [← laneDot v3 v4 r 0, ← laneDot v3 v5 r 0, ← laneDot v3 v3 r 0, ← laneDot v4 v4 r 0, ← laneDot v5 v5 r 0]
  rfl

/-- The total starts at zero. -/
theorem pay3_eq : (k0_pay3 (F := Ideal)) = fun _ => (0 : EReal) := by
  dsimp only [k0_pay3]
  rw [shapeCast_self]
  funext i
  exact Ideal.ofBits_zero_f32

/-- A point adds its block's scalar to the total. -/
theorem pay1_eq (s : Ideal .f32) (acc : Vec Ideal S1x1 .f32) :
    k0_pay1 (F := Ideal) s acc = fun i => acc i + s := by
  dsimp only [k0_pay1]
  rw [shapeCast_self]
  rfl

/-- The last point writes zero minus the logarithm of the total: the loss of the total. -/
theorem pay2_eq (acc : Vec Ideal S1x1 .f32) :
    k0_pay2 (F := Ideal) acc = fun i => loss (acc i) := by
  dsimp only [k0_pay2]
  funext i
  show Ideal.ofBits .f32 0x00000000#32 - Ideal.log (acc i) = -(Ideal.log (acc i))
  rw [Ideal.ofBits_zero_f32, zero_sub]

end Cert.KernelIdeal.Pay

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.Regroup.lean ====
/-
  The one law that joins the two programs: a sum over the 100000 rows is the sum, over the ten consecutive blocks of
  10000 rows, of the blocks' sums.  It needs only that addition on the extended reals is associative and commutative,
  so nothing is asked of the inputs.
-/
import proofs.«171142_j26371099197446_1_alg».proof.Proof.RowRatio
import proofs.«171142_j26371099197446_1_alg».proof.Proof.LibBlockSum

noncomputable section

namespace Cert.Contrast

open Idealize.ShloMosaic Idealize.ShloMosaic.ValueIdx

/-- The row ratio of row `n` of three [100000,128] arrays, for any natural `n` (zero past the last row). -/
def rowRatioN (X P Q : (⟨2, ![100000, 128]⟩ : Shape).Idx → EReal) (n : ℕ) : EReal :=
  if h : n < 100000 then ratio (rowOf X ⟨n, h⟩) (rowOf P ⟨n, h⟩) (rowOf Q ⟨n, h⟩) else 0

theorem rowRatioN_of_lt (X P Q : (⟨2, ![100000, 128]⟩ : Shape).Idx → EReal) (n : ℕ) (h : n < 100000) :
    rowRatioN X P Q n = ratio (rowOf X ⟨n, h⟩) (rowOf P ⟨n, h⟩) (rowOf Q ⟨n, h⟩) := dif_pos h

/-- The scalar of block `s`: the sum of the row ratios of rows 10000·s … 10000·s + 9999. -/
def blockScalar (X P Q : (⟨2, ![100000, 128]⟩ : Shape).Idx → EReal) (s : ℕ) : EReal :=
  ∑ l : Fin 10000, rowRatioN X P Q (10000 * s + l.val)

/-- The total over all rows is the sum of the ten blocks' scalars. -/
theorem total_eq_blocks (X P Q : (⟨2, ![100000, 128]⟩ : Shape).Idx → EReal) :
    ∑ n : Fin 100000, ratio (rowOf X n) (rowOf P n) (rowOf Q n) = ∑ s ∈ Finset.range 10, blockScalar X P Q s := by
  have e : ∑ n : Fin 100000, ratio (rowOf X n) (rowOf P n) (rowOf Q n) = ∑ n : Fin (10 * 10000), rowRatioN X P Q n.val :=
    Finset.sum_congr rfl fun n _ => (rowRatioN_of_lt X P Q n.val n.isLt).symm
  rw [e, Cert.Lib.sum_fin_blocks (rowRatioN X P Q) 10 10000]
  rfl

end Cert.Contrast

end
-- ==== Proof.Accumulate.lean ====
/-
  The kernel's running total, point by point.  Block `t` of an argument is its rows 10000·t … 10000·t + 9999, so the
  scalar the body computes at point `t` is the scalar of block `t` of the arguments; the scratch cell therefore holds,
  after point `n`, the sum of the scalars of blocks 0 … n (by induction on the point: the first point starts from zero,
  every later point adds to what the point before left), and the result cell after the last point holds the loss of
  the sum over all ten blocks.
-/
import proofs.«171142_j26371099197446_1_alg».proof.Proof.Gen.KernelIdeal.Frame
import proofs.«171142_j26371099197446_1_alg».proof.Proof.Pieces
import proofs.«171142_j26371099197446_1_alg».proof.Proof.Payloads
import proofs.«171142_j26371099197446_1_alg».proof.Proof.Regroup

noncomputable section

namespace Cert.KernelIdeal.Acc

open Cert.KernelIdeal Cert.KernelIdeal.Gen Cert.KernelIdeal.Pieces Cert.KernelIdeal.Pay Cert.Contrast
open Idealize.ShloMosaic Idealize.ShloMosaic.TcCoe Idealize.SL.Sem Idealize.ShloMosaic.ValueIdx

variable (m : (ℓ : Loc nD τ sig) → Buf (Elt Ideal) ℓ)

/-- The three argument arrays on core `c`. -/
abbrev argX (c : Dev nD) : FVec Ideal S100000x128 .f32 := m ((c : Thread nD τ).loc main_arg0)
abbrev argP (c : Dev nD) : FVec Ideal S100000x128 .f32 := m ((c : Thread nD τ).loc main_arg1)
abbrev argQ (c : Dev nD) : FVec Ideal S100000x128 .f32 := m ((c : Thread nD τ).loc main_arg2)

/-- Their blocks at point `t`, as the body loads them. -/
abbrev blkX (c : Dev nD) (t : Fin cfg0.N) : Vec Ideal S10000x128 .f32 := iblk m c 0 t
abbrev blkP (c : Dev nD) (t : Fin cfg0.N) : Vec Ideal S10000x128 .f32 := iblk m c 1 t
abbrev blkQ (c : Dev nD) (t : Fin cfg0.N) : Vec Ideal S10000x128 .f32 := iblk m c 2 t

/-- The three windows' block index at point `t` is (t, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

theorem row_lt (t : Fin cfg0.N) (l : Fin 10000) : 10000 * t.val + l.val < 100000 := by
  have hN : cfg0.N = 10 := N_0
  have := t.isLt; have := l.isLt; omega

/-- Row `l` of block `t` is row 10000·t + l of the array. -/
theorem blkX_row (c : Dev nD) (t : Fin cfg0.N) (l : Fin 10000) :
    rowOf (blkX m c t) l = rowOf (argX m c) ⟨10000 * t.val + l.val, row_lt t l⟩ := by
  funext k
  show iblk m c 0 t (ix2 l k) = m ((c : Thread nD τ).loc main_arg0) _
  unfold iblk
  rw [View.read_apply]
  show V m c main_arg0 _ = m ((c : Thread nD τ).loc main_arg0) _
  unfold V
  congr 1
  funext a
  apply Fin.ext
  match a with
  | ⟨0, _⟩ => show win0_0.index t 0 * 10000 + 1 * l.val = 10000 * t.val + l.val; rw [(idx_facts t).1.1]; omega
  | ⟨1, _⟩ => show win0_0.index t 1 * 128 + 1 * k.val = k.val; rw [(idx_facts t).1.2]; omega

theorem blkP_row (c : Dev nD) (t : Fin cfg0.N) (l : Fin 10000) :
    rowOf (blkP m c t) l = rowOf (argP m c) ⟨10000 * t.val + l.val, row_lt t l⟩ := by
  funext k
  show iblk m c 1 t (ix2 l k) = m ((c : Thread nD τ).loc main_arg1) _
  unfold iblk
  rw [View.read_apply]
  show V m c main_arg1 _ = m ((c : Thread nD τ).loc main_arg1) _
  unfold V
  congr 1
  funext a
  apply Fin.ext
  match a with
  | ⟨0, _⟩ => show win0_1.index t 0 * 10000 + 1 * l.val = 10000 * t.val + l.val; rw [(idx_facts t).2.1.1]; omega
  | ⟨1, _⟩ => show win0_1.index t 1 * 128 + 1 * k.val = k.val; rw [(idx_facts t).2.1.2]; omega

theorem blkQ_row (c : Dev nD) (t : Fin cfg0.N) (l : Fin 10000) :
    rowOf (blkQ m c t) l = rowOf (argQ m c) ⟨10000 * t.val + l.val, row_lt t l⟩ := by
  funext k
  show iblk m c 2 t (ix2 l k) = m ((c : Thread nD τ).loc main_arg2) _
  unfold iblk
  rw [View.read_apply]
  show V m c main_arg2 _ = m ((c : Thread nD τ).loc main_arg2) _
  unfold V
  congr 1
  funext a
  apply Fin.ext
  match a with
  | ⟨0, _⟩ => show win0_2.index t 0 * 10000 + 1 * l.val = 10000 * t.val + l.val; rw [(idx_facts t).2.2.1]; omega
  | ⟨1, _⟩ => show win0_2.index t 1 * 128 + 1 * k.val = k.val; rw [(idx_facts t).2.2.2]; omega

/-- The scalar the body computes at point `t` is the scalar of block `t` of the arguments. -/
theorem pay4_blk (c : Dev nD) (t : Fin cfg0.N) :
    k0_pay4 (F := Ideal) (blkX m c t) (blkP m c t) (blkQ m c t) = blockScalar (argX m c) (argP m c) (argQ m c) t.val := by
  rw [pay4_eq]
  refine Finset.sum_congr rfl fun l _ => ?_
  rw [rowRatioN_of_lt _ _ _ _ (row_lt t l), blkX_row, blkP_row, blkQ_row]

/-- What a later point leaves in the scratch cell: the block's scalar added to what the point before left. -/
theorem scratch_succ (c : Dev nD) (n : ℕ) (hn : n + 1 < cfg0.N) :
    (outsAt0 m c (n + 1) hn).2
      = k0_pay1 (k0_pay4 (blkX m c ⟨n + 1, hn⟩) (blkP m c ⟨n + 1, hn⟩) (blkQ m c ⟨n + 1, hn⟩))
          (outsAt0 m c n (Nat.lt_of_succ_lt hn)).2 := by
  have hN : cfg0.N = 10 := N_0
  have h0 : ¬(⟨n + 1, hn⟩ : Fin cfg0.N).val % 10 = 0 := by dsimp only; omega
  by_cases h1 : (⟨n + 1, hn⟩ : Fin cfg0.N).val % 10 = 9
  · rw [outsAt0_C m c ⟨n + 1, hn⟩ h0 h1]
    dsimp only
    exact sout_C (F := Ideal) c _ _ _ _ _ _ _ _ _ _ _ _ _ _ _ _ _
  · rw [outsAt0_B m c ⟨n + 1, hn⟩ h0 h1]
    dsimp only
    exact sout_B (F := Ideal) c _ _ _ _ _ _ _ _ _ _ _ _ _ _ _ _ _

/-- After point `n` the scratch cell holds the sum of the scalars of blocks 0 … n. -/
theorem scratch_eq (c : Dev nD) : ∀ (n : ℕ) (hn : n < cfg0.N),
    (outsAt0 m c n hn).2 = fun _ => ∑ s ∈ Finset.range (n + 1), blockScalar (argX m c) (argP m c) (argQ m c) s
  | 0, hn => by
    rw [outsAt0_A m c ⟨0, hn⟩ rfl (by dsimp only; omega)]
    dsimp only
    rw [sout_A (F := Ideal) c _ _ _ _ _ _ _ _ _ _ _ _ _ _ _ _, pay1_eq, pay3_eq]
    funext _
    show (0 : EReal) + k0_pay4 (F := Ideal) (blkX m c ⟨0, hn⟩) (blkP m c ⟨0, hn⟩) (blkQ m c ⟨0, hn⟩) = _
    rw [pay4_blk, Finset.sum_range_one, zero_add]
  | n + 1, hn => by
    rw [scratch_succ m c n hn, pay1_eq, scratch_eq c n (Nat.lt_of_succ_lt hn), pay4_blk]
    funext _
    exact (Finset.sum_range_succ _ (n + 1)).symm

/-- The last point. -/
theorem last_lt : 9 < cfg0.N := by rw [show cfg0.N = 10 from N_0]; decide

/-- After the last point the result cell holds the loss of the sum of all ten blocks' scalars. -/
theorem result_eq (c : Dev nD) :
    (outsAt0 m c 9 last_lt).1 = fun _ => loss (∑ s ∈ Finset.range 10, blockScalar (argX m c) (argP m c) (argQ m c) s) := by
  rw [outsAt0_C m c ⟨9, last_lt⟩ (by decide) rfl]
  dsimp only
  rw [out_C (F := Ideal) c _ _ _ _ _ _ _ _ _ _ _ _ _ _ _ _ _, pay2_eq, pay1_eq]
  funext _
  show loss ((outsAt0 m c 8 _).2 _ + k0_pay4 (F := Ideal) (blkX m c ⟨9, last_lt⟩) (blkP m c ⟨9, last_lt⟩) (blkQ m c ⟨9, last_lt⟩)) = _
  rw [scratch_eq m c 8, pay4_blk]
  exact congrArg loss (Finset.sum_range_succ _ 9).symm

end Cert.KernelIdeal.Acc

end
-- ==== Proof.KernelValue.lean ====
/-
  The kernel program's result on the extended reals.  The result cell is written back to its [1,1] array once, after
  the last grid point, and that one block is the whole array; the host line after the call reads the array's one entry
  as a scalar.  So the program ends with its result at the loss of the sum of the ten blocks' scalars, its arguments
  unchanged.
-/
import proofs.«171142_j26371099197446_1_alg».proof.Proof.Accumulate
import Idealize.ShloMosaic.Lib.StableHlo.Run

noncomputable section

namespace Cert.KernelIdeal.KValue

open Cert.KernelIdeal Cert.KernelIdeal.Gen Cert.KernelIdeal.Acc Cert.Contrast
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The loss of the sum of the ten blocks' scalars of core `c`'s arguments. -/
abbrev lossBlocks (c : Dev nD) : EReal :=
  loss (∑ s ∈ Finset.range 10, blockScalar (argX m c) (argP m c) (argQ m c) s)

/-- The [1,1] result array's contents after the run. -/
abbrev cell (c : Dev nD) : Buf (Elt Ideal) ((c : Thread nD τ).loc main_v0) := fun _ => lossBlocks m c

/-- The one write-back, after the last point, writes the result cell: block (0, 0) of the [1,1] array is the array. -/
theorem flushed_eq (c : Dev nD) (t : Fin cfg0.N) (hf : (cfg0.win 3).flush t = true) :
    (dats m 0 c).flushed 3 t = ((cfg0.win 3).blk t).view.read (Elt Ideal) (cell m c) := by
  have hN : cfg0.N = 10 := N_0
  have h9 : t.val = 9 := by have := (flush0_3 t).mp hf; have := t.isLt; omega
  obtain rfl : t = t0_9 := Fin.ext h9
  show (cfg0.win 3).cut (grid0.coords t0_9) ((dats m 0 c).after 3 t0_9) = _
  rw [after0_3]
  show (cfg0.win 3).cut (grid0.coords t0_9) (outsAt0 m c 9 last_lt).1 = _
  rw [result_eq]
  have hz' : (fun a => win0_3.index t0_9 a * main_v0.ty.shape.size a) = fun _ => 0 := funext fun a => by fin_cases a <;> decide
  exact (Memref.read_access_unit_zero (Elt Ideal) main_v0 hz' (fun a => by rw [congrFun hz' a]; simp) (cell m c)).symm

/-- So the result array ends holding the cell (the last point's block covers it). -/
theorem final_eq (c : Dev nD) : (dats m 0 c).arrAt 3 cfg0.N = cell m c :=
  (dats m 0 c).arrAt_eq_of_cover 3 (cell m c) (flushed_eq m c) fun i =>
    ⟨t0_9, (flush0_3 t0_9).mpr rfl, by
      show i ∈ ((View.whole main_v0).slice (win0_3.rect t0_9)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_9 0 * win0_3.size 0 ≤ (i 0 : Nat) ∧ (i 0 : Nat) < win0_3.index t0_9 0 * win0_3.size 0 + win0_3.xsize (grid0.coords t0_9) 0
                  rw [show win0_3.index t0_9 0 * win0_3.size 0 = 0 from by decide +kernel, show win0_3.xsize (grid0.coords t0_9) 0 = 1 from by decide +kernel]; omega
      | ⟨1, _⟩ => show win0_3.index t0_9 1 * win0_3.size 1 ≤ (i 1 : Nat) ∧ (i 1 : Nat) < win0_3.index t0_9 1 * win0_3.size 1 + win0_3.xsize (grid0.coords t0_9) 1
                  rw [show win0_3.index t0_9 1 * win0_3.size 1 = 0 from by decide +kernel, show win0_3.xsize (grid0.coords t0_9) 1 = 1 from by decide +kernel]; omega⟩

/-- The scalar result is neither scoped nor an array of the call. -/
theorem v1_rest : main_v1 ∈ Pipeline.restRefs sig (cfgs 0).spec :=
  Pipeline.mem_restRefs_of main_v1 rfl (by decide)

/-- The host line after the call reads the array's one entry as the scalar result. -/
theorem tail_eq (c : Dev nD) :
    Pipeline.afterTail₀ cfgs (dats m) 0 (V0 m) [hostOps1] c main_v1 = fun _ => lossBlocks m c := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N) (Proc.devRef .tc main_v0)
      = cell m c :=
    (Pipeline.withArrays_arr spec0 launch0.win.arr_inj c _ _ 3).trans (final_eq m c)
  rw [e]
  rfl

/-- THE RUN, READ: from any memory with zero counters every weakly fair execution of the program ends with the scalar
    result at the loss of the sum of the ten blocks' scalars and the three arguments unchanged. -/
theorem run : θ_run defs (onTc (τ := τ) (main (F := Ideal))) ⟨m, fun _ => 0, ρ⟩ fun r => ∀ c : Dev nD,
      r.2.mem ((c : Thread nD τ).loc main_v1) = (fun _ => lossBlocks m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v1 v1_rest).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.KValue

end
-- ==== Proof.Reference.lean ====
/-
  The reference program on the extended reals.  Its straight line computes, for every row `n` of the three arguments, the
  three inner products and norms, the two similarities and the row ratio — each host operation the extended reals' own,
  a host sum from zero the plain sum — then sums the 100000 row ratios and returns minus the logarithm of the total.
-/
import proofs.«171142_j26371099197446_1_alg».proof.Proof.Gen.ReferenceIdeal.Run
import proofs.«171142_j26371099197446_1_alg».proof.Proof.Gen.ReferenceIdeal.Read
import proofs.«171142_j26371099197446_1_alg».proof.Proof.RowRatio

noncomputable section

namespace Cert.ReferenceIdeal.RefValue

open Cert.ReferenceIdeal Cert.ReferenceIdeal.Gen Cert.Contrast Idealize.ShloMosaic Idealize.ShloMosaic.ValueIdx

/-- The host's inner products of the rows of two arrays. -/
def hdot (x y : FVec Ideal S100000x128 .f32) : FVec Ideal S100000 .f32 :=
  Host.reduceAdd (F := Ideal) (mulf x y) (constant (F := Ideal) S_ .f32 0x00000000#32) reducesTo_S100000x128_S100000_d1 h_S_

theorem hdot_apply (x y : FVec Ideal S100000x128 .f32) (n : Fin 100000) :
    hdot x y (ix1 n) = dot (rowOf x n) (rowOf y n) :=
  hostLaneSum (mulf x y) _ _ n

/-- The host's similarities of the rows of two arrays. -/
def hsim (x y : FVec Ideal S100000x128 .f32) : FVec Ideal S100000 .f32 :=
  Host.exp (Host.divf (Host.divf (hdot x y) (mulf (Host.sqrt (hdot x x)) (Host.sqrt (hdot y y))))
    (broadcastInDim S100000 ![] bcast_S_S100000 (constant (F := Ideal) S_ .f32 0x3F000000#32)))

theorem hsim_apply (x y : FVec Ideal S100000x128 .f32) (n : Fin 100000) :
    hsim x y (ix1 n) = sim (rowOf x n) (rowOf y n) := by
  unfold sim
  rw [← hdot_apply x y n, ← hdot_apply x x n, ← hdot_apply y y n]
  simp only [hsim, Host.exp, Host.divf, Host.sqrt, mulf, broadcastInDim, constant, Ideal.hostUnary_exp_def,
    Ideal.hostUnary_sqrt_def, Ideal.hostDivf_def, Ideal.mulf_def, Ideal.ofBits_def]

/-- The host's row ratios. -/
def hratio (X P Q : FVec Ideal S100000x128 .f32) : FVec Ideal S100000 .f32 :=
  Host.divf (hsim X P) (addf (hsim X Q) (broadcastInDim S100000 ![] bcast_S_S100000 (constant (F := Ideal) S_ .f32 0x322BCC77#32)))

theorem hratio_apply (X P Q : FVec Ideal S100000x128 .f32) (n : Fin 100000) :
    hratio X P Q (ix1 n) = ratio (rowOf X n) (rowOf P n) (rowOf Q n) := by
  unfold ratio
  rw [← hsim_apply X P n, ← hsim_apply X Q n]
  simp only [hratio, Host.divf, addf, broadcastInDim, constant, Ideal.hostDivf_def, Ideal.addf_def, Ideal.ofBits_def]

/-- The reference's result: the loss of the total of the row ratios, at its one index. -/
theorem result_eq (X P Q : FVec Ideal S100000x128 .f32) :
    Host.negf (Host.log (Host.reduceAdd (F := Ideal) (hratio X P Q) (constant (F := Ideal) S_ .f32 0x00000000#32) reducesTo_S100000_S_d0 h_S_))
      = fun _ => loss (∑ n : Fin 100000, ratio (rowOf X n) (rowOf P n) (rowOf Q n)) := by
  funext j
  simp only [Host.negf, Host.log, Ideal.hostNegf_def, Ideal.negf_def, Ideal.hostUnary_log_def]
  rw [hostTotal]
  unfold loss
  exact congrArg (fun t => -(Ideal.log t)) (Finset.sum_congr rfl fun n _ => hratio_apply X P Q n)

end Cert.ReferenceIdeal.RefValue

end
-- ==== Proof.lean ====
/-
  Equivalence over the extended reals of a row-wise cosine-similarity contrastive loss kernel and its reference.

  Both programs take three [100000,128] arrays x, p, q and return ONE number: minus the logarithm of the sum, over the
  100000 rows n, of the row ratio
      exp (cos(xₙ, pₙ) / ½) / (exp (cos(xₙ, qₙ) / ½) + ε),   cos(a, b) = ⟨a,b⟩ / (√⟨a,a⟩ · √⟨b,b⟩).
  The reference forms all 100000 row ratios and sums them at once.  The kernel walks the rows in ten blocks of 10000:
  at each grid point it forms the block's row ratios, sums them to one scalar, and adds the scalar to a running total
  kept in a scratch cell (zeroed at the first point); after the last point it writes minus the total's logarithm.
  On the extended reals every operation of the two texts is the same function — the lane sum and the host sum the
  plain sum, the kernel's and the host's square root, exponential, logarithm and quotient one function each, zero
  minus a number its negation — and the two totals differ only in the grouping of one sum, which associativity and
  commutativity of addition settle (Regroup.lean); no use is made of the inputs being finite.

  The modules: RowRatio (the mathematics and the sums read at an index), Regroup (the regrouping), Payloads (the
  body's arithmetic is the row ratios' block sum), Pieces (what each course of the body leaves), Accumulate (the
  running total by induction on the grid point), KernelValue (the write-back, the host line after the call, the run),
  Reference (the reference's straight line).  The three frames: the two kernels' are the generated frame
  certificates, the reference's is its generated run with the result dropped.  The idealization rewrote nothing.
-/
import proofs.«171142_j26371099197446_1_alg».proof.Defs
import proofs.«171142_j26371099197446_1_alg».proof.Proof.Gen.Kernel
import proofs.«171142_j26371099197446_1_alg».proof.Proof.Gen.Kernel.Skeleton
import proofs.«171142_j26371099197446_1_alg».proof.Proof.Gen.Kernel.Launch
import proofs.«171142_j26371099197446_1_alg».proof.Proof.Gen.Kernel.Points
import proofs.«171142_j26371099197446_1_alg».proof.Proof.Gen.Kernel.Frame
import proofs.«171142_j26371099197446_1_alg».proof.Proof.Gen.KernelIdeal
import proofs.«171142_j26371099197446_1_alg».proof.Proof.Gen.KernelIdeal.Skeleton
import proofs.«171142_j26371099197446_1_alg».proof.Proof.Gen.KernelIdeal.Launch
import proofs.«171142_j26371099197446_1_alg».proof.Proof.Gen.KernelIdeal.Points
import proofs.«171142_j26371099197446_1_alg».proof.Proof.Gen.KernelIdeal.Frame
import proofs.«171142_j26371099197446_1_alg».proof.Proof.Gen.ReferenceIdeal
import proofs.«171142_j26371099197446_1_alg».proof.Proof.Gen.ReferenceIdeal.Run
import proofs.«171142_j26371099197446_1_alg».proof.Proof.Gen.ReferenceIdeal.Read
import proofs.«171142_j26371099197446_1_alg».proof.Proof.Gen.Pre_finite_inputs
import proofs.«171142_j26371099197446_1_alg».proof.Proof.KernelValue
import proofs.«171142_j26371099197446_1_alg».proof.Proof.Reference
import Idealize.ShloMosaic.Adequacy
import Idealize.ShloMosaic.Init

noncomputable section

namespace Cert.Proof

open Idealize.ShloMosaic Idealize.SL.Sem Cert.Contrast

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The kernel's total, block by block, and the reference's, all rows at once, are one sum; so the two results are
    the loss of the same total. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.KernelIdeal.KValue.lossBlocks m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.RefValue.result_eq _ _ _).trans ?_
  funext _
  exact congrArg loss (total_eq_blocks _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
